-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x42x3 : Shape := ⟨3, ![64, 42, 3]⟩
abbrev S64x16384x3 : Shape := ⟨3, ![64, 16384, 3]⟩
abbrev S64x42 : Shape := ⟨2, ![64, 42]⟩
abbrev S_ : Shape := ⟨0, ![]⟩

class Facts : Prop where
  bcast_S_S64x42x3 : S_.BroadcastsInDim S64x42x3 (![] : Fin 0 → Fin S64x42x3.rank)
  reducesTo_S64x42x3_S_d0_1_2 : S64x42x3.ReducesTo [0, 1, 2] S_
  h_S_ : 0 < S_.numel
  bcast_S_S64x16384x3 : S_.BroadcastsInDim S64x16384x3 (![] : Fin 0 → Fin S64x16384x3.rank)
  reducesTo_S64x16384x3_S_d0_1_2 : S64x16384x3.ReducesTo [0, 1, 2] S_
  bcast_S_S64x42 : S_.BroadcastsInDim S64x42 (![] : Fin 0 → Fin S64x42.rank)
  reducesTo_S64x42_S_d0_1 : S64x42.ReducesTo [0, 1] S_

variable [Facts]

def fn {F : FTy → Type} [FloatOps F] (main_arg0 : FVec F S64x42x3 .f32) (main_arg1 : FVec F S64x16384x3 .f32) (main_arg2 : FVec F S64x42 .f32) : IVec S_ 1 :=
  let main_v0 : FVec F S64x42x3 .f32 := Host.absf main_arg0
  let main_cst : FVec F S_ .f32 := constant S_ .f32 0x7F800000#32
  let main_v1 : FVec F S64x42x3 .f32 := broadcastInDim S64x42x3 ![] bcast_S_S64x42x3 main_cst
  let main_v2 : IVec S64x42x3 1 := cmpf .olt main_v0 main_v1
  let main_c : IVec S_ 1 := constantI S_ 1 1#1
  let main_v3 : IVec S_ 1 := (fun x v => Host.reduce IntOp.andi x v reducesTo_S64x42x3_S_d0_1_2 h_S_) main_v2 main_c
  let main_v4 : FVec F S64x16384x3 .f32 := Host.absf main_arg1
  let main_cst_0 : FVec F S_ .f32 := constant S_ .f32 0x7F800000#32
  let main_v5 : FVec F S64x16384x3 .f32 := broadcastInDim S64x16384x3 ![] bcast_S_S64x16384x3 main_cst_0
  let main_v6 : IVec S64x16384x3 1 := cmpf .olt main_v4 main_v5
  let main_c_1 : IVec S_ 1 := constantI S_ 1 1#1
  let main_v7 : IVec S_ 1 := (fun x v => Host.reduce IntOp.andi x v reducesTo_S64x16384x3_S_d0_1_2 h_S_) main_v6 main_c_1
  let main_v8 : IVec S_ 1 := andi main_v3 main_v7
  let main_v9 : FVec F S64x42 .f32 := Host.absf main_arg2
  let main_cst_2 : FVec F S_ .f32 := constant S_ .f32 0x7F800000#32
  let main_v10 : FVec F S64x42 .f32 := broadcastInDim S64x42 ![] bcast_S_S64x42 main_cst_2
  let main_v11 : IVec S64x42 1 := cmpf .olt main_v9 main_v10
  let main_c_3 : IVec S_ 1 := constantI S_ 1 1#1
  let main_v12 : IVec S_ 1 := (fun x v => Host.reduce IntOp.andi x v reducesTo_S64x42_S_d0_1 h_S_) main_v11 main_c_3
  let main_v13 : IVec S_ 1 := andi main_v8 main_v12
  main_v13
-- ==== Kernel.lean ====
abbrev S64x42x3 : Shape := ⟨3, ![64, 42, 3]⟩
abbrev S64x16384x3 : Shape := ⟨3, ![64, 16384, 3]⟩
abbrev S64x42 : Shape := ⟨2, ![64, 42]⟩
abbrev S64x3x42 : Shape := ⟨3, ![64, 3, 42]⟩
abbrev S64x3x16384 : Shape := ⟨3, ![64, 3, 16384]⟩
abbrev S64x42x1 : Shape := ⟨3, ![64, 42, 1]⟩
abbrev S1x3x42 : Shape := ⟨3, ![1, 3, 42]⟩
abbrev S1x3x16384 : Shape := ⟨3, ![1, 3, 16384]⟩
abbrev S1x42x1 : Shape := ⟨3, ![1, 42, 1]⟩
abbrev S42x16384 : Shape := ⟨2, ![42, 16384]⟩
abbrev S1x1x42 : Shape := ⟨3, ![1, 1, 42]⟩
abbrev S42 : Shape := ⟨1, ![42]⟩
abbrev S1x1x16384 : Shape := ⟨3, ![1, 1, 16384]⟩
abbrev S16384 : Shape := ⟨1, ![16384]⟩
abbrev S42x1 : Shape := ⟨2, ![42, 1]⟩
abbrev S1x16384 : Shape := ⟨2, ![1, 16384]⟩
abbrev S_ : Shape := ⟨0, ![]⟩

abbrev nBuf : Space → Nat
  | .hbm => 13
  | .vmem => 6
  | .smem => 0
  | _ => 0

abbrev bufTy : (tb : Table) → Fin (tcTables nBuf tb) → BufTy
  | .hbm, ⟨0, _⟩ => ⟨S64x42x3, .f32⟩
  | .hbm, ⟨1, _⟩ => ⟨S64x16384x3, .f32⟩
  | .hbm, ⟨2, _⟩ => ⟨S64x42, .f32⟩
  | .hbm, ⟨3, _⟩ => ⟨S64x3x42, .f32⟩
  | .hbm, ⟨4, _⟩ => ⟨S64x3x16384, .f32⟩
  | .hbm, ⟨5, _⟩ => ⟨S64x42x1, .f32⟩
  | .hbm, ⟨6, _⟩ => ⟨S64x42, .f32⟩
  | .hbm, ⟨7, _⟩ => ⟨S64x42, .f32⟩
  | .hbm, ⟨8, _⟩ => ⟨S64x42, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x3x42, .f32⟩
  | .local _ .vmem, ⟨1, _⟩ => ⟨S1x3x42, .f32⟩
  | .local _ .vmem, ⟨2, _⟩ => ⟨S1x3x16384, .f32⟩
  | .local _ .vmem, ⟨3, _⟩ => ⟨S1x3x16384, .f32⟩
  | .local _ .vmem, ⟨4, _⟩ => ⟨S1x42x1, .f32⟩
  | .local _ .vmem, ⟨5, _⟩ => ⟨S1x42x1, .f32⟩
  | _, _ => ⟨S64x42x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x42 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x42x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x42x3_S64x3x42_0_2_1 : S64x42x3.Transposes [0, 2, 1] S64x3x42
  transposes_S64x16384x3_S64x3x16384_0_2_1 : S64x16384x3.Transposes [0, 2, 1] S64x3x16384
  inb_S1x3x42_S1x1x42_0_0_0 : ∀ a, (![0, 0, 0] : Fin 3 → Nat) a + S1x1x42.size a ≤ S1x3x42.size a
  h_S1x1x42 : 0 < S1x1x42.numel
  shapeCasts_S1x1x42_S42 : S1x1x42.ShapeCasts S42
  inb_S1x3x16384_S1x1x16384_0_0_0 : ∀ a, (![0, 0, 0] : Fin 3 → Nat) a + S1x1x16384.size a ≤ S1x3x16384.size a
  h_S1x1x16384 : 0 < S1x1x16384.numel
  shapeCasts_S1x1x16384_S16384 : S1x1x16384.ShapeCasts S16384
  shapeCasts_S42_S42x1 : S42.ShapeCasts S42x1
  shapeCasts_S16384_S1x16384 : S16384.ShapeCasts S1x16384
  broadcasts_S42x1_S42x16384 : S42x1.Broadcasts S42x16384
  broadcasts_S1x16384_S42x16384 : S1x16384.Broadcasts S42x16384
  inb_S1x3x42_S1x1x42_0_1_0 : ∀ a, (![0, 1, 0] : Fin 3 → Nat) a + S1x1x42.size a ≤ S1x3x42.size a
  inb_S1x3x16384_S1x1x16384_0_1_0 : ∀ a, (![0, 1, 0] : Fin 3 → Nat) a + S1x1x16384.size a ≤ S1x3x16384.size a
  inb_S1x3x42_S1x1x42_0_2_0 : ∀ a, (![0, 2, 0] : Fin 3 → Nat) a + S1x1x42.size a ≤ S1x3x42.size a
  inb_S1x3x16384_S1x1x16384_0_2_0 : ∀ a, (![0, 2, 0] : Fin 3 → Nat) a + S1x1x16384.size a ≤ S1x3x16384.size a
  reduces_S42x16384_S42 : S42x16384.Reduces [1] S42
  inb_S1x42x1_S1x42x1_0_0_0 : ∀ a, (![0, 0, 0] : Fin 3 → Nat) a + S1x42x1.size a ≤ S1x42x1.size a
  h_S1x42x1 : 0 < S1x42x1.numel
  shapeCasts_S1x42x1_S42x1 : S1x42x1.ShapeCasts S42x1
  shapeCasts_S42x1_S1x42x1 : S42x1.ShapeCasts S1x42x1
  shapeCasts_S64x42x1_S64x42 : S64x42x1.ShapeCasts S64x42
  reducesTo_S64x42_S_d0_1 : S64x42.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x42.size a ≤ S64x3x42.size a
  hwx0_0 : ∀ i : grid0.Coords, EltTy.bits .f32 = 32 ∨ (Rect.block (s := S64x3x42) S1x3x42.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x16384.size a ≤ S64x3x16384.size a
  hwx0_1 : ∀ i : grid0.Coords, EltTy.bits .f32 = 32 ∨ (Rect.block (s := S64x3x16384) S1x3x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x42x1.size a ≤ S64x42x1.size a
  hwx0_2 : ∀ i : grid0.Coords, EltTy.bits .f32 = 32 ∨ (Rect.block (s := S64x42x1) S1x42x1.size (cc0_transform_2 i) (hinb0_2 i)).WholeWords (EltTy.packing .f32)

variable [Facts₀]

abbrev win0_0 : Pipeline.Window sig grid0 :=
  Pipeline.Window.ofSpec (Memref.whole main_v0) S1x3x42.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x42x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x42x3 : Shape := ⟨3, ![64, 42, 3]⟩
abbrev S64x16384x3 : Shape := ⟨3, ![64, 16384, 3]⟩
abbrev S64x42 : Shape := ⟨2, ![64, 42]⟩
abbrev S_ : Shape := ⟨0, ![]⟩
abbrev S64x16384 : Shape := ⟨2, ![64, 16384]⟩
abbrev S64x42x16384 : Shape := ⟨3, ![64, 42, 16384]⟩
abbrev S64x42x1 : Shape := ⟨3, ![64, 42, 1]⟩
abbrev S64x1x16384 : Shape := ⟨3, ![64, 1, 16384]⟩

abbrev nBuf : Space → Nat
  | .hbm => 31
  | .vmem => 0
  | .smem => 0
  | _ => 0

abbrev bufTy : (tb : Table) → Fin (tcTables nBuf tb) → BufTy
  | .hbm, ⟨0, _⟩ => ⟨S64x42x3, .f32⟩
  | .hbm, ⟨1, _⟩ => ⟨S64x16384x3, .f32⟩
  | .hbm, ⟨2, _⟩ => ⟨S64x42, .f32⟩
  | .hbm, ⟨3, _⟩ => ⟨S64x42x3, .f32⟩
  | .hbm, ⟨4, _⟩ => ⟨S_, .f32⟩
  | .hbm, ⟨5, _⟩ => ⟨S64x42, .f32⟩
  | .hbm, ⟨6, _⟩ => ⟨S64x16384x3, .f32⟩
  | .hbm, ⟨7, _⟩ => ⟨S_, .f32⟩
  | .hbm, ⟨8, _⟩ => ⟨S64x16384, .f32⟩
  | .hbm, ⟨9, _⟩ => ⟨S64x42x16384, .f32⟩
  | .hbm, ⟨10, _⟩ => ⟨S64x42x1, .f32⟩
  | .hbm, ⟨11, _⟩ => ⟨S64x1x16384, .f32⟩
  | .hbm, ⟨12, _⟩ => ⟨S64x42x16384, .f32⟩
  | .hbm, ⟨13, _⟩ => ⟨S64x42x16384, .f32⟩
  | .hbm, ⟨14, _⟩ => ⟨S64x42x16384, .f32⟩
  | .hbm, ⟨15, _⟩ => ⟨S_, .f32⟩
  | .hbm, ⟨16, _⟩ => ⟨S64x42x16384, .f32⟩
  | .hbm, ⟨17, _⟩ => ⟨S64x42x16384, .f32⟩
  | .hbm, ⟨18, _⟩ => ⟨S64x42x16384, .f32⟩
  | .hbm, ⟨19, _⟩ => ⟨S_, .f32⟩
  | .hbm, ⟨20, _⟩ => ⟨S64x42x16384, .f32⟩
  | .hbm, ⟨21, _⟩ => ⟨S64x42x16384, .f32⟩
  | .hbm, ⟨22, _⟩ => ⟨S64x42x16384, .f32⟩
  | .hbm, ⟨23, _⟩ => ⟨S_, .f32⟩
  | .hbm, ⟨24, _⟩ => ⟨S64x42, .f32⟩
  | .hbm, ⟨25, _⟩ => ⟨S64x42, .f32⟩
  | .hbm, ⟨26, _⟩ => ⟨S64x42, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S64x42x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S64x42x3_S64x42_d2 : S64x42x3.ReducesTo [2] S64x42
  h_S_ : 0 < S_.numel
  reducesTo_S64x16384x3_S64x16384_d2 : S64x16384x3.ReducesTo [2] S64x16384
  bcast_S64x42_S64x42x1_0_1 : S64x42.BroadcastsInDim S64x42x1 (![0, 1] : Fin 2 → Fin S64x42x1.rank)
  bcast_S64x16384_S64x1x16384_0_2 : S64x16384.BroadcastsInDim S64x1x16384 (![0, 2] : Fin 2 → Fin S64x1x16384.rank)
  bcast_S64x42x1_S64x42x16384_0_1_2 : S64x42x1.BroadcastsInDim S64x42x16384 (![0, 1, 2] : Fin 3 → Fin S64x42x16384.rank)
  bcast_S64x1x16384_S64x42x16384_0_1_2 : S64x1x16384.BroadcastsInDim S64x42x16384 (![0, 1, 2] : Fin 3 → Fin S64x42x16384.rank)
  bcast_S_S64x42x16384 : S_.BroadcastsInDim S64x42x16384 (![] : Fin 0 → Fin S64x42x16384.rank)
  reducesTo_S64x42x16384_S64x42_d2 : S64x42x16384.ReducesTo [2] S64x42
  reducesTo_S64x42_S_d0_1 : S64x42.ReducesTo [0, 1] S_
  dot_S64x42x3_S64x16384x3_S64x42x16384_2_2_1_1_0_0_wf : DotDims.WF S64x42x3 S64x16384x3 S64x42x16384 [2] [2] [1] [1] [0] [0]

variable [Facts₀]

def dot_S64x42x3_S64x16384x3_S64x42x16384_2_2_1_1_0_0 : DotDims S64x42x3 S64x16384x3 S64x42x16384 where
  lhsContracting := [2]
  rhsContracting := [2]
  lhsNonContracting := [1]
  rhsNonContracting := [1]
  lhsBatch := [0]
  rhsBatch := [0]
  wf := dot_S64x42x3_S64x16384x3_S64x42x16384_2_2_1_1_0_0_wf

class Facts : Prop extends Facts₀ where

variable [Facts]
-- ==== Proof.MinDistance.lean ====
/-
  The mathematics the two programs share, free of either program's text.

  For a joint `A` and a cloud of points `O p` in three coordinates, one program takes the least over `p` of the squared
  distance `∑ₖ (A k - O p k)²`, accumulated coordinate by coordinate from zero, and then its square root; the other takes,
  for each `p`, the square root of `max (∑ₖ A k² + ∑ₖ (O p k)² - 2 ∑ₖ A k · O p k) 0` and then the least of those roots.
  On real coordinates the two squared distances are one number, which is not negative, so the clamp at zero does nothing;
  and the square root is monotone on the extended reals, so it passes through a minimum (the empty minimum `⊤` included:
  `√⊤ = ⊤`). Hence the two least distances agree.
-/
import Idealize.ShloMosaic.PureOps.Ideal
import Idealize.ShloMosaic.PureOps.Ideal.Laws
import Idealize.ShloMosaic.Lib.ValueIdx

noncomputable section

open scoped BigOperators

namespace Cert.MinDistance

open Idealize.ShloMosaic Idealize.ShloMosaic.ValueIdx

/-! ## The three literals -/

/-- The pattern of `2.0` denotes the real two. -/
theorem ofBits_two : Ideal.ofBits .f32 0x40000000#32 = ((2 : ℝ) : EReal) := by
  simp [Ideal.ofBits, Ideal.ieee, -EReal.coe_mul]; norm_num

/-- The pattern of `+inf` denotes the top element. -/
theorem ofBits_inf : Ideal.ofBits .f32 0x7F800000#32 = ⊤ := by
  simp [Ideal.ofBits, Ideal.ieee]

/-! ## The square root and a minimum -/

/-- The square root is monotone on all of the extended reals: below zero it is `⊥`, on the non-negative reals it is the
    real square root, and `√⊤ = ⊤`. -/
theorem sqrt_mono : Monotone Ideal.sqrt := by
  intro x y hxy
  induction x using EReal.rec with
  | bot => exact bot_le
  | top =>
    have hy : y = ⊤ := top_le_iff.mp hxy
    subst hy; exact le_rfl
  | coe r =>
    induction y using EReal.rec with
    | bot => exact absurd hxy (by simp)
    | top => exact le_top
    | coe s =>
      have hrs : r ≤ s := EReal.coe_le_coe_iff.mp hxy
      show (if r < 0 then (⊥ : EReal) else (Real.sqrt r : EReal)) ≤ (if s < 0 then (⊥ : EReal) else (Real.sqrt s : EReal))
      by_cases hr : r < 0
      · rw [if_pos hr]; exact bot_le
      · have hs : ¬ s < 0 := fun h => hr (lt_of_le_of_lt hrs h)
        rw [if_neg hr, if_neg hs]
        exact EReal.coe_le_coe_iff.mpr (Real.sqrt_le_sqrt hrs)

/-- So the square root of a least element, taken from `⊤`, is the least of the square roots. -/
theorem sqrt_fold_min {ι : Type*} (s : Finset ι) (f : ι → EReal) :
    Ideal.sqrt (s.fold min ⊤ f) = s.fold min ⊤ (fun p => Ideal.sqrt (f p)) := by
  have h := Finset.fold_hom (op := (min : EReal → EReal → EReal)) (op' := (min : EReal → EReal → EReal))
    (m := Ideal.sqrt) (s := s) (b := (⊤ : EReal)) (f := f) (fun _ _ => sqrt_mono.map_min)
  rw [Ideal.sqrt_top] at h
  exact h.symm

/-! ## The squared distance, two ways -/

/-- The squared distance accumulated coordinate by coordinate from zero. -/
def sqDistDirect (A O : Fin 3 → EReal) : EReal :=
  ((0 + (A 0 - O 0) * (A 0 - O 0)) + (A 1 - O 1) * (A 1 - O 1)) + (A 2 - O 2) * (A 2 - O 2)

/-- The squared distance expanded into the two squared norms and the inner product, and clamped at zero. -/
def sqDistExpanded (A O : Fin 3 → EReal) : EReal :=
  max (((0 + ∑ k : Fin 3, A k * A k) + (0 + ∑ k : Fin 3, O k * O k)) - ((2 : ℝ) : EReal) * ∑ k : Fin 3, A k * O k) 0

/-- On real coordinates the two are one number: `∑ (a - o)² = ∑ a² + ∑ o² - 2 ∑ a o`, and a sum of squares is not negative. -/
theorem sqDist_eq (a o : Fin 3 → ℝ) :
    sqDistDirect (fun k => (a k : EReal)) (fun k => (o k : EReal))
      = sqDistExpanded (fun k => (a k : EReal)) (fun k => (o k : EReal)) := by
  have hL : sqDistDirect (fun k => (a k : EReal)) (fun k => (o k : EReal))
      = (((a 0 - o 0) * (a 0 - o 0) + (a 1 - o 1) * (a 1 - o 1) + (a 2 - o 2) * (a 2 - o 2) : ℝ) : EReal) := by
    unfold sqDistDirect
    rw [zero_add]
    norm_cast
  have hR : ((0 + ∑ k : Fin 3, (a k : EReal) * (a k : EReal)) + (0 + ∑ k : Fin 3, (o k : EReal) * (o k : EReal)))
        - ((2 : ℝ) : EReal) * ∑ k : Fin 3, (a k : EReal) * (o k : EReal)
      = (((a 0 - o 0) * (a 0 - o 0) + (a 1 - o 1) * (a 1 - o 1) + (a 2 - o 2) * (a 2 - o 2) : ℝ) : EReal) := by
    rw [Fin.sum_univ_three, Fin.sum_univ_three, Fin.sum_univ_three, zero_add, zero_add]
    norm_cast
    ring
  rw [hL]
  unfold sqDistExpanded
  rw [hR]
  refine (max_eq_left ?_).symm
  exact EReal.coe_nonneg.mpr (add_nonneg (add_nonneg (mul_self_nonneg _) (mul_self_nonneg _)) (mul_self_nonneg _))

/-! ## The least distance, two ways -/

/-- The square root of the least directly accumulated squared distance. -/
def rootOfLeast {N : ℕ} (A : Fin 3 → EReal) (O : Fin N → Fin 3 → EReal) : EReal :=
  Ideal.sqrt ((Finset.univ : Finset (Fin N)).fold min ⊤ fun p => sqDistDirect A (O p))

/-- The least of the square roots of the expanded, clamped squared distances. -/
def leastOfRoots {N : ℕ} (A : Fin 3 → EReal) (O : Fin N → Fin 3 → EReal) : EReal :=
  (Finset.univ : Finset (Fin N)).fold min ⊤ fun p => Ideal.sqrt (sqDistExpanded A (O p))

/-- On real coordinates they agree. -/
theorem rootOfLeast_eq_leastOfRoots {N : ℕ} (A : Fin 3 → EReal) (O : Fin N → Fin 3 → EReal)
    (hA : ∀ k, ∃ r : ℝ, A k = r) (hO : ∀ p k, ∃ r : ℝ, O p k = r) : rootOfLeast A O = leastOfRoots A O := by
  choose a ha using hA
  choose o ho using hO
  obtain rfl : A = fun k => (a k : EReal) := funext ha
  obtain rfl : O = fun p k => (o p k : EReal) := funext fun p => funext fun k => ho p k
  unfold rootOfLeast leastOfRoots
  rw [sqrt_fold_min]
  exact Finset.fold_congr fun p _ => congrArg Ideal.sqrt (sqDist_eq a (o p))

/-! ## The arrays: 64 batches of 42 joints against 16384 points, in three coordinates -/

/-- The least distances as ONE function of the joints' and the points' arrays: entry `(b, j)` is the least, over the points `p`
    of batch `b`, of the root of the expanded squared distance between joint `(b, j)` and point `(b, p)`. -/
def leastDistances (a : (⟨3, ![64, 42, 3]⟩ : Shape).Idx → EReal) (o : (⟨3, ![64, 16384, 3]⟩ : Shape).Idx → EReal) :
    (⟨2, ![64, 42]⟩ : Shape).Idx → EReal := fun i =>
  leastOfRoots (fun k => a (ix3 (⟨(i 0).val, idx2_lt0 i⟩ : Fin 64) (⟨(i 1).val, idx2_lt1 i⟩ : Fin 42) k))
    (fun (p : Fin 16384) k => o (ix3 (⟨(i 0).val, idx2_lt0 i⟩ : Fin 64) p k))

/-- The same table with the root taken after the minimum, and a trailing unit axis: what the kernel's result array holds. -/
def rootsArray (a : (⟨3, ![64, 42, 3]⟩ : Shape).Idx → EReal) (o : (⟨3, ![64, 16384, 3]⟩ : Shape).Idx → EReal) :
    (⟨3, ![64, 42, 1]⟩ : Shape).Idx → EReal := fun i =>
  rootOfLeast (fun k => a (ix3 (⟨(i 0).val, (i 0).isLt⟩ : Fin 64) (⟨(i 1).val, (i 1).isLt⟩ : Fin 42) k))
    (fun (p : Fin 16384) k => o (ix3 (⟨(i 0).val, (i 0).isLt⟩ : Fin 64) p k))

/-- The array of roots at an index whose first two coordinates are `b` and `j`, whatever the unit coordinate. -/
theorem rootsArray_of_coords (a : (⟨3, ![64, 42, 3]⟩ : Shape).Idx → EReal) (o : (⟨3, ![64, 16384, 3]⟩ : Shape).Idx → EReal)
    (i : (⟨3, ![64, 42, 1]⟩ : Shape).Idx) (b : Fin 64) (j : Fin 42) (h0 : (i 0).val = b.val) (h1 : (i 1).val = j.val) :
    rootsArray a o i = rootOfLeast (fun k => a (ix3 b j k)) (fun (p : Fin 16384) k => o (ix3 b p k)) := by
  have eb : (⟨(i 0).val, (i 0).isLt⟩ : Fin 64) = b := Fin.ext h0
  have ej : (⟨(i 1).val, (i 1).isLt⟩ : Fin 42) = j := Fin.ext h1
  unfold rootsArray
  rw [eb, ej]

/-- On real entries, entry `(b, j, 0)` of the one is entry `(b, j)` of the other. -/
theorem rootsArray_apply (a : (⟨3, ![64, 42, 3]⟩ : Shape).Idx → EReal) (o : (⟨3, ![64, 16384, 3]⟩ : Shape).Idx → EReal)
    (ha : ∀ i, ∃ r : ℝ, a i = r) (ho : ∀ i, ∃ r : ℝ, o i = r) (b : Fin 64) (j : Fin 42) (u : Fin 1) :
    rootsArray a o (ix3 b j u) = leastDistances a o (ix2 b j) :=
  rootOfLeast_eq_leastOfRoots _ _ (fun k => ha _) (fun p k => ho _)

/-- The mean squared error against the given distances: the difference squared, summed over all `64 · 42` entries from zero,
    divided by their number. Both programs end with exactly these operations. -/
def meanSquaredError (X gt : FVec Ideal ⟨2, ![64, 42]⟩ .f32) (h : (⟨2, ![64, 42]⟩ : Shape).ReducesTo [0, 1] ⟨0, ![]⟩)
    (hu : 0 < (⟨0, ![]⟩ : Shape).numel) : FVec Ideal ⟨0, ![]⟩ .f32 :=
  Host.divf (Host.reduceAdd (mulf (subf X gt) (subf X gt)) (constant ⟨0, ![]⟩ .f32 0x00000000#32) h hu)
    (constant ⟨0, ![]⟩ .f32 0x45280000#32)

end Cert.MinDistance

end
-- ==== Proof.Finite.lean ====
/-
  What the precondition gives. It says of each float argument that every entry's absolute value is below `+inf`; an extended
  real whose absolute value is below `⊤` is neither `⊤` nor `⊥`, so it is a real number. The law that joins the two programs
  (expanding a square of a difference) holds on the reals and fails at the infinities, so this is where it is needed.
-/
import proofs.«115377_j39565238730835_1_alg».proof.Pre_finite_inputs
import proofs.«115377_j39565238730835_1_alg».proof.Proof.MinDistance
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Idealize.ShloMosaic Cert.Pre_finite_inputs

variable [Cert.Pre_finite_inputs.Facts]

instance : Subsingleton S_.Idx := ⟨fun a b => funext fun d => d.elim0⟩

/-- An extended real whose absolute value compares below the pattern of `+inf` is a real number. -/
theorem real_of_abs_lt_inf (x : EReal)
    (h : Ideal.cmp .olt (max x (-x)) (Ideal.ofBits .f32 0x7F800000#32) = 1#1) : ∃ r : ℝ, x = r := by
  rw [Cert.MinDistance.ofBits_inf] at h
  induction x using EReal.rec with
  | bot => simp [Ideal.cmp] at h
  | top => simp [Ideal.cmp] at h
  | coe r => exact ⟨r, rfl⟩

/-- Under the precondition every entry of the joints' array and of the points' array is a real number. -/
theorem real_of_pre (a0 : FVec Ideal S64x42x3 .f32) (a1 : FVec Ideal S64x16384x3 .f32) (a2 : FVec Ideal S64x42 .f32)
    (h : fn (F := Ideal) a0 a1 a2 = fun _ => 1#1) :
    (∀ i, ∃ r : ℝ, a0 i = r) ∧ (∀ i, ∃ r : ℝ, a1 i = r) := by
  have h0 := congrFun h ValueIdx.ix0
  dsimp only [fn] at h0
  obtain ⟨h01, -⟩ := IntOp.andi_eq_one.mp h0
  obtain ⟨hA, hB⟩ := IntOp.andi_eq_one.mp h01
  refine ⟨fun i => ?_, fun i => ?_⟩
  · exact real_of_abs_lt_inf (a0 i) (Host.reduce_andi_all _ _ _ _ _ hA i)
  · exact real_of_abs_lt_inf (a1 i) (Host.reduce_andi_all _ _ _ _ _ hB i)

end Cert.Pre_finite_inputs.Finite

end
-- ==== Proof.LibKeepdims.lean ====
/-
  Column forms of the layout operations a `keepdims` reduction leaves behind, read at an index: a vector turned into a
  one-column matrix, and a one-column matrix broadcast along its rows. General in the extents and in the element type.
-/
import Idealize.ShloMosaic.Lib.ValueIdx
import Idealize.ShloMosaic.Lib.Pipeline.Value

namespace Cert.Lib.Keepdims

open Idealize.ShloMosaic Idealize.ShloMosaic.ValueIdx

variable {α : Type}

/-- An `[a]` array cast to `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibUnitAxes.lean ====
/-
  Unit axes dropped by a shape cast, read at an index. A row vector held as a `[1, 1, a]` array, read as the plain vector
  `[a]`: the two leading unit axes carry no information, so element `i` of the vector is element `(0, 0, i)` of the array.
  A matrix held with a trailing unit axis, `[a, b, 1]`, read as `[a, b]`: element `(i, j)` is element `(i, j, 0)`. General in
  the extents and the element type.
-/
import Idealize.ShloMosaic.Lib.ValueIdx
import Idealize.ShloMosaic.Lib.Pipeline.Value

namespace Cert.Lib.UnitAxes

open Idealize.ShloMosaic Idealize.ShloMosaic.ValueIdx

variable {α : Type}

/-- A `[1, 1, a]` array cast to `[a]` reads, at `i`, the operand at `(0, 0, i)`: both have row-major position `i`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a, b, 1]` array cast to `[a, b]` reads, at `(i, j)`, the operand at `(i, j, 0)`: both have row-major position
    `i · b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    simp only [Nat.mul_one, Nat.add_zero])

end Cert.Lib.UnitAxes
-- ==== Proof.LibMinReduce.lean ====
/-
  A minimum taken along ONE axis, at the ideal values, as the fold of `min` over that axis's coordinates: for a vector
  reduction inside a kernel and for the host's one-operand reduction alike. At the ideal values `minimumf` is `min` on the
  extended reals, which commutes and associates, so the order in which the elements are met does not matter.
-/
import Idealize.ShloMosaic.PureOps.Ideal.Laws
import Idealize.ShloMosaic.PureOps.Reduce

namespace Cert.Lib.MinReduce

open Idealize.ShloMosaic

variable {φ : FTy}

/-- A float `vector.multi_reduction <minimumf>` over one axis, read at `Ideal`: the fold of `min` from the accumulator's value
    over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The host's one-operand reduce with a `minimum` body over one axis, read at `Ideal`: the fold of `min` from the initial
    value's one element over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce FloatOps.minimumf x init h' hu j
      = (Finset.univ : Finset (Fin (s.size a))).fold min (init (Shape.Idx.first hu)) (x ∘ h.lift j) :=
  Host.reduce_eq_fold_single FloatOps.minimumf x init h' h hu j

end Cert.Lib.MinReduce
-- ==== Proof.KernelBlock.lean ====
/-
  What one grid point of the kernel leaves in its output block, read at an index. The point for batch `b` holds the joints
  of that batch as a `[1, 3, 42]` block (coordinate-major) and the points as a `[1, 3, 16384]` block. For each coordinate it
  loads the joints' row and the points' row, forms the `[42, 16384]` table of differences by broadcasting the one along the
  rows and the other along the columns, squares it and adds it to the running table, which starts at zero. It then takes
  the least entry of every row, starting from `+inf`, and the square root of that. So entry `(0, j, 0)` of the output block is the
  square root of the least, over the points `p`, of the directly accumulated squared distance between joint `j` and point `p`.
-/
import proofs.«115377_j39565238730835_1_alg».proof.Proof.Gen.KernelIdeal.Frame
import proofs.«115377_j39565238730835_1_alg».proof.Proof.MinDistance
import proofs.«115377_j39565238730835_1_alg».proof.Proof.LibKeepdims
import proofs.«115377_j39565238730835_1_alg».proof.Proof.LibUnitAxes
import proofs.«115377_j39565238730835_1_alg».proof.Proof.LibMinReduce
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx
open Cert.MinDistance Cert.Lib.Keepdims Cert.Lib.UnitAxes Cert.Lib.MinReduce

/-- A square root taken entry by entry reads, at an index, the square root of the entry there. -/
theorem sqrt_apply {s : Shape} {φ : FTy} (a : FVec Ideal s φ) (i : s.Idx) : sqrt a i = Ideal.sqrt (a i) := rfl

/-- One coordinate's table of differences at `(j, p)`: the joints' row at `j` minus the points' row at `p`. The row of
    joints is cast to a column and broadcast along the rows of the table; the row of points is cast to a one-row matrix
    and broadcast down its columns. -/
theorem diff_apply (v : FVec Ideal S1x1x42 .f32) (w : FVec Ideal S1x1x16384 .f32)
    (h1 : S1x1x42.ShapeCasts S42) (h2 : S42.ShapeCasts S42x1) (h3 : S42x1.Broadcasts S42x16384)
    (h4 : S1x1x16384.ShapeCasts S16384) (h5 : S16384.ShapeCasts S1x16384) (h6 : S1x16384.Broadcasts S42x16384)
    (j : Fin 42) (p : Fin 16384) :
    subf (F := Ideal) (φ := .f32) (broadcastTo S42x16384 (shapeCast S42x1 (shapeCast S42 v h1) h2) h3)
        (broadcastTo S42x16384 (shapeCast S1x16384 (shapeCast S16384 w h4) h5) h6) (ix2 j p)
      = v (ix3 (0 : Fin 1) (0 : Fin 1) j) - w (ix3 (0 : Fin 1) (0 : Fin 1) p) := by
  rw [subf_apply, broadcastTo_a1_ab_apply, shapeCast_a_a1_apply, shapeCast_11a_a_apply, broadcastTo_1b_ab_apply,
    shapeCast_a_1a_apply, shapeCast_11a_a_apply]

/-- The least entry of row `j` of a `[42, 16384]` table, taken from `+inf`: the fold of `min` from `⊤` over the row's entries. -/
theorem rowMin_apply (src : FVec Ideal S42x16384 .f32) (h : S42x16384.Reduces [1] S42) (hφ : FKind.Formats .f32)
    (hacc : (0x7F800000#32 : BitVec 32) = 0x7F800000#32) (j : Fin 42) :
    multiReduction .minimumf [1] S42 src 0x7F800000#32 h hφ hacc (ix1 j)
      = (Finset.univ : Finset (Fin 16384)).fold min ⊤ fun p => src (ix2 j p) := by
  have hl : ∀ p : Fin 16384, h.lift (ix1 j) p = ix2 j p := fun p =>
    funext fun a => Fin.ext (by match a with | ⟨0, _⟩ => rfl | ⟨1, _⟩ => rfl)
  refine (multiReduction_minimumf_single src 0x7F800000#32 h hφ hacc (ix1 j)).trans ?_
  rw [ofBits_inf]
  refine Finset.fold_congr fun p _ => ?_
  rw [Function.comp_apply, hl p]

/-- The body's arithmetic at row `j`: the square root of the least, over the points, of the squared distance accumulated
    coordinate by coordinate from zero. -/
theorem root_apply (v1 v12 v23 : FVec Ideal S1x1x42 .f32) (v3 v14 v25 : FVec Ideal S1x1x16384 .f32) (j : Fin 42) (u : Fin 1) :
    k0_pay2 (F := Ideal) v1 v3 v12 v14 v23 v25 (ix2 j u)
      = Ideal.sqrt ((Finset.univ : Finset (Fin 16384)).fold min ⊤ fun p =>
          ((0 + (v1 (ix3 (0 : Fin 1) (0 : Fin 1) j) - v3 (ix3 (0 : Fin 1) (0 : Fin 1) p))
                * (v1 (ix3 (0 : Fin 1) (0 : Fin 1) j) - v3 (ix3 (0 : Fin 1) (0 : Fin 1) p)))
            + (v12 (ix3 (0 : Fin 1) (0 : Fin 1) j) - v14 (ix3 (0 : Fin 1) (0 : Fin 1) p))
                * (v12 (ix3 (0 : Fin 1) (0 : Fin 1) j) - v14 (ix3 (0 : Fin 1) (0 : Fin 1) p)))
            + (v23 (ix3 (0 : Fin 1) (0 : Fin 1) j) - v25 (ix3 (0 : Fin 1) (0 : Fin 1) p))
                * (v23 (ix3 (0 : Fin 1) (0 : Fin 1) j) - v25 (ix3 (0 : Fin 1) (0 : Fin 1) p))) := by
  unfold k0_pay2
  dsimp only
  rw [sqrt_apply, shapeCast_a_a1_apply]
  refine congrArg Ideal.sqrt ?_
  refine (rowMin_apply _ _ _ _ j).trans ?_
  refine Finset.fold_congr fun p _ => ?_
  rw [addf_apply, addf_apply, addf_apply, mulf_apply, mulf_apply, mulf_apply, diff_apply, diff_apply,
    diff_apply, broadcast_apply, Ideal.ofBits_def, Ideal.ofBits_zero_f32]

/-- Row `k` of a staged `[1, 3, n]` block, loaded as a `[1, 1, n]` vector, reads at `(0, 0, i)` the block at `(0, k, i)`: the
    load's rectangle starts at row `k` and has unit strides. -/
theorem ld_row_apply {Val : EltTy → Type} {e : EltTy} {n : ℕ} (x : (⟨3, ![1, 3, n]⟩ : Shape).Idx → Val e) (k : Fin 3)
    (inb : ∀ a, (![0, k.val, 0] : Fin 3 → Nat) a + (![1, 1, n] : Fin 3 → Nat) a ≤ (⟨3, ![1, 3, n]⟩ : Shape).size a) (i : Fin n) :
    View.ld x (Rect.unit (s := (⟨3, ![1, 3, n]⟩ : Shape)) ![0, k.val, 0] ![1, 1, n] inb) (ix3 (0 : Fin 1) (0 : Fin 1) i)
      = x (ix3 (0 : Fin 1) k i) := by
  refine congrArg x (funext fun a => Fin.ext ?_)
  match a with
  | ⟨0, _⟩ => rfl
  | ⟨1, _⟩ => show k.val + 1 * 0 = k.val; omega
  | ⟨2, _⟩ => show 0 + 1 * i.val = i.val; omega

theorem hz : (![0, 0, 0] : Fin 3 → Nat) = fun _ => 0 := funext fun a => by fin_cases a <;> rfl

/-- WHAT ONE POINT LEAVES: entry `(u, j, u')` of the output block is the square root of the least, over the points `p` of the
    staged block of points, of the directly accumulated squared distance between joint `j` of the staged block of joints and
    point `p`. -/
theorem out_apply (x0 : FVec Ideal S1x3x42 .f32) (x1 : FVec Ideal S1x3x16384 .f32) (u : Fin 1) (j : Fin 42) (u' : Fin 1) :
    out0_2 (F := Ideal) x0 x1 (ix3 u j u')
      = rootOfLeast (fun k => x0 (ix3 (0 : Fin 1) k j)) (fun (p : Fin 16384) k => x1 (ix3 (0 : Fin 1) k p)) := by
  unfold out0_2
  rw [View.canon_unit_zero hz]
  unfold k0_pay1
  rw [shapeCast_ab_1ab_apply]
  refine (root_apply _ _ _ _ _ _ j u').trans ?_
  unfold rootOfLeast
  refine congrArg Ideal.sqrt (Finset.fold_congr fun p _ => ?_)
  have a0 := ld_row_apply (Val := Elt Ideal) (e := EltTy.f32) (n := 42) x0 0 inb_S1x3x42_S1x1x42_0_0_0 j
  have a1 := ld_row_apply (Val := Elt Ideal) (e := EltTy.f32) (n := 42) x0 1 inb_S1x3x42_S1x1x42_0_1_0 j
  have a2 := ld_row_apply (Val := Elt Ideal) (e := EltTy.f32) (n := 42) x0 2 inb_S1x3x42_S1x1x42_0_2_0 j
  have o0 := ld_row_apply (Val := Elt Ideal) (e := EltTy.f32) (n := 16384) x1 0 inb_S1x3x16384_S1x1x16384_0_0_0 p
  have o1 := ld_row_apply (Val := Elt Ideal) (e := EltTy.f32) (n := 16384) x1 1 inb_S1x3x16384_S1x1x16384_0_1_0 p
  have o2 := ld_row_apply (Val := Elt Ideal) (e := EltTy.f32) (n := 16384) x1 2 inb_S1x3x16384_S1x1x16384_0_2_0 p
  have key : ∀ {A0 A1 A2 O0 O1 O2 B0 B1 B2 P0 P1 P2 : EReal}, A0 = B0 → A1 = B1 → A2 = B2 → O0 = P0 → O1 = P1 → O2 = P2 →
      ((0 + (A0 - O0) * (A0 - O0)) + (A1 - O1) * (A1 - O1)) + (A2 - O2) * (A2 - O2)
        = ((0 + (B0 - P0) * (B0 - P0)) + (B1 - P1) * (B1 - P1)) + (B2 - P2) * (B2 - P2) := by
    intro A0 A1 A2 O0 O1 O2 B0 B1 B2 P0 P1 P2 h0 h1 h2 g0 g1 g2
    rw [h0, h1, h2, g0, g1, g2]
  exact key a0 a1 a2 o0 o1 o2

/-- The same at any index of the output block whose middle coordinate is `j`. -/
theorem out_at (x0 : FVec Ideal S1x3x42 .f32) (x1 : FVec Ideal S1x3x16384 .f32) (z : S1x42x1.Idx) (j : Fin 42)
    (hz : (z 1).val = j.val) :
    out0_2 (F := Ideal) x0 x1 z
      = rootOfLeast (fun k => x0 (ix3 (0 : Fin 1) k j)) (fun (p : Fin 16384) k => x1 (ix3 (0 : Fin 1) k p)) := by
  obtain ⟨u, j', u', rfl⟩ : ∃ (u : Fin 1) (j' : Fin 42) (u' : Fin 1), z = ix3 u j' u' := ⟨z 0, z 1, z 2, eq_ix3 z⟩
  obtain rfl : j' = j := Fin.ext hz
  exact out_apply x0 x1 u j' u'

end Cert.KernelIdeal.Block

end
-- ==== Proof.KernelRoots.lean ====
/-
  The kernel's array of roots: from what each grid point writes back to the whole array after the run. Point `t` stages
  block `t` of the transposed joints and block `t` of the transposed points (the host transposes both before the call,
  putting the coordinate axis before the joint or point axis), and writes block `t` of the `[64, 42, 1]` result. The 64
  blocks tile the result, so after the run entry `(b, j, 0)` is the root of the least squared distance between joint
  `(b, j)` and the points of batch `b`, as a function of the ARGUMENT arrays.
-/
import proofs.«115377_j39565238730835_1_alg».proof.Proof.Gen.KernelIdeal.Frame
import proofs.«115377_j39565238730835_1_alg».proof.Proof.KernelBlock
import Idealize.ShloMosaic.Lib.StableHlo.Run
import Idealize.ShloMosaic.Lib.ValueLayout
import Idealize.ShloMosaic.Lib.Pipeline.Value

set_option maxRecDepth 16384

noncomputable section

namespace Cert.KernelIdeal.Roots

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.MinDistance

variable (m : (ℓ : Loc nD τ sig) → Buf (Elt Ideal) ℓ) (ρ : Dev nD → PrngReg)

/-- A grid point as a batch number. -/
abbrev batch (t : Fin cfg0.N) : Fin 64 := ⟨t.val, lt_of_lt_of_eq t.isLt N_0⟩

/-- The region finds the joints transposed: coordinate axis before joint axis. -/
theorem V_joints (c : Dev nD) : V m c main_v0
    = transpose S64x3x42 [0, 2, 1] (m ((c : Thread nD τ).loc main_arg0)) transposes_S64x42x3_S64x3x42_0_2_1 := by
  show StableHlo.after hostOps0 (fun b => m (c, b)) (Proc.devRef .tc main_v0) = _
  after_results

/-- The printed index maps, decided over the grid: every window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Point `t`'s block of joints at `(0, k, j)` is coordinate `k` of joint `(t, j)` of the argument array. -/
theorem joints_block (c : Dev nD) (t : Fin cfg0.N) (k : Fin 3) (j : Fin 42) :
    iblk m c 0 t (ix3 (0 : Fin 1) k j) = m ((c : Thread nD τ).loc main_arg0) (ix3 (batch t) j k) := by
  show V m c main_v0 (((cfg0.win 0).blk t).view.emb (ix3 (0 : Fin 1) k j)) = _
  have he : ((cfg0.win 0).blk t).view.emb (ix3 (0 : Fin 1) k j) = ix3 (batch t) k j := by
    obtain ⟨e0, e1, e2, -⟩ := idx_facts t
    funext a; apply Fin.ext
    match a with
    | ⟨0, _⟩ => show win0_0.index t (0 : Fin 3) * 1 + 1 * 0 = t.val; omega
    | ⟨1, _⟩ => show win0_0.index t (1 : Fin 3) * 3 + 1 * k.val = k.val; omega
    | ⟨2, _⟩ => show win0_0.index t (2 : Fin 3) * 42 + 1 * j.val = j.val; omega
  rw [he, V_joints, transpose_ix3_021_apply]

/-- The region finds the points transposed likewise. -/
theorem V_points (c : Dev nD) : V m c main_v1
    = transpose S64x3x16384 [0, 2, 1] (m ((c : Thread nD τ).loc main_arg1)) transposes_S64x16384x3_S64x3x16384_0_2_1 := by
  show StableHlo.after hostOps0 (fun b => m (c, b)) (Proc.devRef .tc main_v1) = _
  after_results

/-- Point `t`'s block of points at `(0, k, p)` is coordinate `k` of point `(t, p)` of the argument array. -/
theorem points_block (c : Dev nD) (t : Fin cfg0.N) (k : Fin 3) (p : Fin 16384) :
    iblk m c 1 t (ix3 (0 : Fin 1) k p) = m ((c : Thread nD τ).loc main_arg1) (ix3 (batch t) p k) := by
  show V m c main_v1 (((cfg0.win 1).blk t).view.emb (ix3 (0 : Fin 1) k p)) = _
  have he : ((cfg0.win 1).blk t).view.emb (ix3 (0 : Fin 1) k p) = ix3 (batch t) k p := by
    obtain ⟨-, -, -, e0, e1, e2, -⟩ := idx_facts t
    funext a; apply Fin.ext
    match a with
    | ⟨0, _⟩ => show win0_1.index t (0 : Fin 3) * 1 + 1 * 0 = t.val; omega
    | ⟨1, _⟩ => show win0_1.index t (1 : Fin 3) * 3 + 1 * k.val = k.val; omega
    | ⟨2, _⟩ => show win0_1.index t (2 : Fin 3) * 16384 + 1 * p.val = p.val; omega
  rw [he, V_points, transpose_ix3_021_apply]

/-- Any contents of the result array, read through point `t`'s block at `y`, is the contents at the block's element `y`. -/
theorem read_result_block (G : S64x42x1.Idx → Elt Ideal .f32) (t : Fin cfg0.N) (y : ((cfg0.win 2).xblock (grid0.coords t)).Idx) :
    ((cfg0.win 2).blk t).view.read (Elt Ideal) G y = G (((cfg0.win 2).blk t).view.emb y) := rfl

/-- WHAT POINT `t` WRITES BACK is block `t` of the array of roots of the argument arrays. -/
theorem flushed_eq (c : Dev nD) (t : Fin cfg0.N) :
    (dats m 0 c).flushed 2 t = ((cfg0.win 2).blk t).view.read (Elt Ideal)
      (rootsArray (m ((c : Thread nD τ).loc main_arg0)) (m ((c : Thread nD τ).loc main_arg1))) := by
  show (cfg0.win 2).cut (grid0.coords t) ((dats m 0 c).after 2 t) = _
  rw [after0_2]
  funext y
  obtain ⟨-, -, -, -, -, -, e0, e1, e2⟩ := idx_facts t
  have hy0 : (y 0).val < 1 := (y 0).isLt
  have hy1 : (y 1).val < 42 := (y 1).isLt
  have h0 : ((((cfg0.win 2).blk t).view.emb y) 0).val = (batch t).val := by
    show win0_2.index t (0 : Fin 3) * 1 + 1 * (y 0).val = t.val; omega
  have h1 : ((((cfg0.win 2).blk t).view.emb y) 1).val = (y 1).val := by
    show win0_2.index t (1 : Fin 3) * 42 + 1 * (y 1).val = (y 1).val; omega
  have hA : (cfg0.win 2).cut (grid0.coords t) (out0_2 (iblk m c 0 t) (iblk m c 1 t)) y
      = out0_2 (iblk m c 0 t) (iblk m c 1 t) ((cfg0.win 2).xinj (grid0.coords t) y) := rfl
  refine hA.trans ?_
  refine Eq.trans ?_ (read_result_block _ t y).symm
  refine Eq.trans ?_ (rootsArray_of_coords _ _ _ (batch t) ⟨(y 1).val, hy1⟩ h0 h1).symm
  refine (Cert.KernelIdeal.Block.out_at _ _ _ ⟨(y 1).val, hy1⟩ rfl).trans ?_
  simp only [joints_block, points_block]

/-- An index of the result array is in point `t`'s block iff each coordinate is in the block's range on its axis. -/
theorem mem_blk (t : Fin cfg0.N) (i : S64x42x1.Idx) :
    i ∈ ((cfg0.win 2).blk t).view.set ↔ ∀ a : Fin 3, win0_2.index t a * S1x42x1.size a ≤ (i a).val
      ∧ (i a).val < win0_2.index t a * S1x42x1.size a + S1x42x1.size a := by
  show i ∈ ((View.whole main_v2).slice (win0_2.rect t)).set ↔ _
  rw [View.set_slice_whole, Rect.mem_set_unit]
  exact Iff.rfl

/-- The 64 blocks tile the result array: index `(b, j, 0)` lies in point `b`'s block. -/
theorem cover (i : S64x42x1.Idx) : ∃ t : Fin cfg0.N, (cfg0.win 2).flush t = true ∧ i ∈ ((cfg0.win 2).blk t).view.set := by
  have hi0 : (i 0).val < 64 := (i 0).isLt
  have hi1 : (i 1).val < 42 := (i 1).isLt
  have hi2 : (i 2).val < 1 := (i 2).isLt
  have hN : (i 0).val < cfg0.N := lt_of_lt_of_eq hi0 N_0.symm
  obtain ⟨-, -, -, -, -, -, e0, e1, e2⟩ := idx_facts ⟨(i 0).val, hN⟩
  have e0' : win0_2.index ⟨(i 0).val, hN⟩ (0 : Fin 3) = (i 0).val := e0
  refine ⟨⟨(i 0).val, hN⟩, flush0_2 _, ?_⟩
  rw [mem_blk]
  intro a
  match a with
  | ⟨0, _⟩ => show win0_2.index ⟨(i 0).val, hN⟩ (0 : Fin 3) * 1 ≤ (i 0).val ∧ (i 0).val < win0_2.index ⟨(i 0).val, hN⟩ (0 : Fin 3) * 1 + 1; omega
  | ⟨1, _⟩ => show win0_2.index ⟨(i 0).val, hN⟩ (1 : Fin 3) * 42 ≤ (i 1).val ∧ (i 1).val < win0_2.index ⟨(i 0).val, hN⟩ (1 : Fin 3) * 42 + 42; omega
  | ⟨2, _⟩ => show win0_2.index ⟨(i 0).val, hN⟩ (2 : Fin 3) * 1 ≤ (i 2).val ∧ (i 2).val < win0_2.index ⟨(i 0).val, hN⟩ (2 : Fin 3) * 1 + 1; omega

/-- THE ARRAY after the run: the array of roots of the argument arrays. -/
theorem final (c : Dev nD) : (dats m 0 c).arrAt 2 cfg0.N
    = rootsArray (m ((c : Thread nD τ).loc main_arg0)) (m ((c : Thread nD τ).loc main_arg1)) :=
  (dats m 0 c).arrAt_eq_of_cover 2 _ (fun t _ => flushed_eq m c t) cover

end Cert.KernelIdeal.Roots

end
-- ==== Proof.KernelResult.lean ====
/-
  The kernel's run, read. After the region the host drops the result's trailing unit axis, subtracts the given distances,
  squares, sums over all entries from zero and divides by their number; the region leaves the array of roots of the
  argument arrays. On real entries that array, without its unit axis, is the table of least distances, so the program's
  result is the mean squared error of the least distances against the given ones.
-/
import proofs.«115377_j39565238730835_1_alg».proof.Proof.Gen.KernelIdeal.Frame
import proofs.«115377_j39565238730835_1_alg».proof.Proof.KernelRoots
import proofs.«115377_j39565238730835_1_alg».proof.Proof.LibUnitAxes
import Idealize.ShloMosaic.Lib.StableHlo.Run
import Idealize.ShloMosaic.Lib.Pipeline.Value

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.MinDistance

variable (m : (ℓ : Loc nD τ sig) → Buf (Elt Ideal) ℓ) (ρ : Dev nD → PrngReg)

/-- The lines after the region: the mean squared error of the result array, its unit axis dropped, against the given distances. -/
theorem tail_eq (c : Dev nD) :
    Pipeline.afterTail₀ cfgs (dats m) 0 (V0 m) [hostOps1] c main_v7
      = meanSquaredError (shapeCast S64x42 ((dats m 0 c).arrAt 2 cfg0.N) shapeCasts_S64x42x1_S64x42)
          (m ((c : Thread nD τ).loc main_arg2)) reducesTo_S64x42_S_d0_1 h_S_ := by
  unfold Pipeline.afterTail₀
  show StableHlo.after hostOps1 _ (Proc.devRef .tc main_v7) = _
  after_results
  have e2 : Pipeline.withArrays (cfgs 0).spec c (V0 m c) (fun w => (dats m 0 c).arrAt w (cfgs 0).N) (Proc.devRef .tc main_v2)
      = (dats m 0 c).arrAt 2 cfg0.N := Pipeline.withArrays_arr spec0 launch0.win.arr_inj c _ _ 2
  have ea : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [e2, ea]
  rfl

/-- On real entries the array of roots, its unit axis dropped, is the table of least distances. -/
theorem cast_roots (a : FVec Ideal S64x42x3 .f32) (o : FVec Ideal S64x16384x3 .f32)
    (ha : ∀ i, ∃ r : ℝ, a i = r) (ho : ∀ i, ∃ r : ℝ, o i = r) (h : S64x42x1.ShapeCasts S64x42) :
    shapeCast S64x42 (rootsArray a o) h = leastDistances a o := by
  funext i
  obtain ⟨b, j, rfl⟩ : ∃ (b : Fin 64) (j : Fin 42), i = ix2 b j := ⟨i 0, i 1, eq_ix2 i⟩
  rw [Cert.Lib.UnitAxes.shapeCast_ab1_ab_apply]
  exact rootsArray_apply a o ha ho b j 0

/-- THE RUN: every weakly fair execution ends with the result at the mean squared error of the least distances of the
    argument arrays, and the arguments unchanged — when the joints' and the points' entries are real numbers. -/
theorem run (hfin : ∀ c : Dev nD,
      (∀ i, ∃ r : ℝ, (m ((c : Thread nD τ).loc main_arg0) : FVec Ideal S64x42x3 .f32) i = ((r : ℝ) : EReal))
      ∧ (∀ i, ∃ r : ℝ, (m ((c : Thread nD τ).loc main_arg1) : FVec Ideal S64x16384x3 .f32) i = ((r : ℝ) : EReal))) :
    θ_run defs (onTc (τ := τ) (main (F := Ideal))) ⟨m, fun _ => 0, ρ⟩ fun r => ∀ c : Dev nD,
      r.2.mem ((c : Thread nD τ).loc main_v7)
          = meanSquaredError (leastDistances (m ((c : Thread nD τ).loc main_arg0)) (m ((c : Thread nD τ).loc main_arg1)))
              (m ((c : Thread nD τ).loc main_arg2)) reducesTo_S64x42_S_d0_1 h_S_
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v7 (Pipeline.mem_restRefs_of main_v7 (by decide) (by decide))).trans ((tail_eq m c).trans (by
        rw [Cert.KernelIdeal.Roots.final m c, cast_roots _ _ (hfin c).1 (hfin c).2])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.RefLeastDistance.lean ====
/-
  The reference, read at an index. For batch `b` and joint `j` its array of least distances holds the least, over the
  points `p` of batch `b`, of the square root of the expanded and clamped squared distance between joint `(b, j)` and
  point `(b, p)`: the two squared norms are sums over the three coordinates from zero, the inner product is the
  contraction over the coordinate axis with the batch axis kept, and the minimum runs along the point axis from `+inf`.
-/
import proofs.«115377_j39565238730835_1_alg».proof.Proof.Gen.ReferenceIdeal.Read
import proofs.«115377_j39565238730835_1_alg».proof.Proof.MinDistance
import proofs.«115377_j39565238730835_1_alg».proof.Proof.LibMinReduce
import Idealize.ShloMosaic.Lib.ValueIdx
import Idealize.ShloMosaic.PureOps.Ideal.Laws

noncomputable section

namespace Cert.ReferenceIdeal.LeastDistance

open Cert.ReferenceIdeal Cert.ReferenceIdeal.Gen Cert.ReferenceIdeal.Read Idealize.ShloMosaic Idealize.ShloMosaic.ValueIdx
open Cert.MinDistance

/-- One distance: at `(b, j, p)` the reference's array of distances holds the square root of the expanded, clamped squared
    distance between joint `(b, j)` and point `(b, p)`. -/
theorem distance_apply (x0 : (⟨S64x42x3, .f32⟩ : BufTy).Contents (Elt Ideal)) (x1 : (⟨S64x16384x3, .f32⟩ : BufTy).Contents (Elt Ideal))
    (b : Fin 64) (j : Fin 42) (p : Fin 16384) :
    val_main_v15 (F := Ideal) x0 x1 (ix3 b j p)
      = Ideal.sqrt (sqDistExpanded (fun k => x0 (ix3 b j k)) (fun k => x1 (ix3 b p k))) := by
  have e1 : ∀ k : Fin 3, idx_main_v1 (idx_main_v5 (idx_main_v7 (ix3 b j p))) k = ix3 b j k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b j p))) k = ix3 b p k := fun k =>
    funext fun a => Fin.ext (by match a with | ⟨0, _⟩ => rfl | ⟨1, _⟩ => rfl | ⟨2, _⟩ => rfl)
  have el : ∀ k : Fin 3, lidx_main_v4 (ix3 b j p) k = ix3 b j k := fun k =>
    funext fun a => Fin.ext (by match a with | ⟨0, _⟩ => rfl | ⟨1, _⟩ => rfl | ⟨2, _⟩ => rfl)
  have er : ∀ k : Fin 3, ridx_main_v4 (ix3 b j p) k = ix3 b p k := fun k =>
    funext fun a => Fin.ext (by match a with | ⟨0, _⟩ => rfl | ⟨1, _⟩ => rfl | ⟨2, _⟩ => rfl)
  rw [val_main_v15_apply, val_main_v14_apply, val_main_v12_apply, val_main_v13_apply, val_main_v9_apply, val_main_v11_apply,
    val_main_v7_apply, val_main_v8_apply, val_main_v5_apply, val_main_v6_apply, val_main_v1_apply, val_main_v3_apply,
    val_main_v10_apply, val_main_v4_apply]
  simp only [val_main_v0_apply, val_main_v2_apply, val_main_cst_apply, val_main_cst_0_apply, val_main_cst_1_apply,
    val_main_cst_2_apply, e1, e3, el, er, Ideal.hostUnary_sqrt_def, Ideal.maximumf_def, Ideal.subf_def, Ideal.addf_def,
    Ideal.mulf_def, Ideal.ofBits_def, Ideal.ofBits_zero_f32, ofBits_two]
  rfl

/-- The least distance: at `(b, j)` the reference's array of least distances is the least of those roots over the points. -/
theorem least_apply (x0 : (⟨S64x42x3, .f32⟩ : BufTy).Contents (Elt Ideal)) (x1 : (⟨S64x16384x3, .f32⟩ : BufTy).Contents (Elt Ideal))
    (b : Fin 64) (j : Fin 42) :
    val_main_v16 (F := Ideal) x0 x1 (ix2 b j)
      = leastOfRoots (fun k => x0 (ix3 b j k)) (fun (p : Fin 16384) k => x1 (ix3 b p k)) := by
  have hred : S64x42x16384.Reduces [2] S64x42 := by decide
  have hl : ∀ p : Fin 16384, hred.lift (ix2 b j) p = ix3 b j p := fun p =>
    funext fun a => Fin.ext (by match a with | ⟨0, _⟩ => rfl | ⟨1, _⟩ => rfl | ⟨2, _⟩ => rfl)
  unfold val_main_v16
  rw [Cert.Lib.MinReduce.hostReduce_minimumf_single _ _ reducesTo_S64x42x16384_S64x42_d2 hred h_S_, val_main_cst_3_apply,
    Ideal.ofBits_def, ofBits_inf]
  unfold leastOfRoots
  refine Finset.fold_congr fun p _ => ?_
  rw [Function.comp_apply, hl p]
  exact distance_apply x0 x1 b j p

/-- The whole table of least distances, as one function of the two argument arrays. -/
theorem least_eq (x0 : (⟨S64x42x3, .f32⟩ : BufTy).Contents (Elt Ideal)) (x1 : (⟨S64x16384x3, .f32⟩ : BufTy).Contents (Elt Ideal)) :
    val_main_v16 (F := Ideal) x0 x1 = leastDistances x0 x1 := by
  funext i
  obtain ⟨b, j, rfl⟩ : ∃ (b : Fin 64) (j : Fin 42), i = ix2 b j := ⟨i 0, i 1, eq_ix2 i⟩
  exact least_apply x0 x1 b j

/-- The reference's result: the mean squared error of that table against the given distances (the last five operations,
    named as one function and never opened). -/
theorem result_eq (x0 : (⟨S64x42x3, .f32⟩ : BufTy).Contents (Elt Ideal)) (x1 : (⟨S64x16384x3, .f32⟩ : BufTy).Contents (Elt Ideal))
    (x2 : (⟨S64x42, .f32⟩ : BufTy).Contents (Elt Ideal)) :
    val_main_v20 (F := Ideal) x0 x1 x2 = meanSquaredError (leastDistances x0 x1) x2 reducesTo_S64x42_S_d0_1 h_S_ := by
  rw [← least_eq]
  rfl

end Cert.ReferenceIdeal.LeastDistance

end
-- ==== Proof.lean ====
/-
  The certificate. The kernel finds, for each of 64 batches and each of 42 joints, the nearest of 16384 points by
  accumulating the squared distance coordinate by coordinate, taking the least and then its square root; the reference
  expands the squared distance into norms and an inner product, clamps it at zero, takes the root of every distance and
  then the least. Both then take the mean squared error against the given distances, by the same operations.
  On finite inputs — which is what the precondition says — the two squared distances are the same non-negative real, so the
  clamp does nothing, and the square root, being monotone, passes through the minimum: the two tables of least distances
  are one function of the arguments (Proof/MinDistance.lean), which the kernel's run (Proof/KernelResult.lean, over
  Proof/KernelRoots.lean and Proof/KernelBlock.lean) and the reference's run (Proof/RefLeastDistance.lean) each end at.
  The three frames are the generated ones; the ideal pass rewrote nothing, so `preserves` has nothing to state.
-/
import proofs.«115377_j39565238730835_1_alg».proof.Defs
import proofs.«115377_j39565238730835_1_alg».proof.Proof.Gen.Kernel
import proofs.«115377_j39565238730835_1_alg».proof.Proof.Gen.Kernel.Skeleton
import proofs.«115377_j39565238730835_1_alg».proof.Proof.Gen.Kernel.Launch
import proofs.«115377_j39565238730835_1_alg».proof.Proof.Gen.Kernel.Points
import proofs.«115377_j39565238730835_1_alg».proof.Proof.Gen.Kernel.Frame
import proofs.«115377_j39565238730835_1_alg».proof.Proof.Gen.KernelIdeal
import proofs.«115377_j39565238730835_1_alg».proof.Proof.Gen.KernelIdeal.Skeleton
import proofs.«115377_j39565238730835_1_alg».proof.Proof.Gen.KernelIdeal.Launch
import proofs.«115377_j39565238730835_1_alg».proof.Proof.Gen.KernelIdeal.Points
import proofs.«115377_j39565238730835_1_alg».proof.Proof.Gen.KernelIdeal.Frame
import proofs.«115377_j39565238730835_1_alg».proof.Proof.Gen.ReferenceIdeal
import proofs.«115377_j39565238730835_1_alg».proof.Proof.Gen.ReferenceIdeal.Run
import proofs.«115377_j39565238730835_1_alg».proof.Proof.Gen.ReferenceIdeal.Read
import proofs.«115377_j39565238730835_1_alg».proof.Proof.Gen.Pre_finite_inputs
import proofs.«115377_j39565238730835_1_alg».proof.Proof.MinDistance
import proofs.«115377_j39565238730835_1_alg».proof.Proof.Finite
import proofs.«115377_j39565238730835_1_alg».proof.Proof.KernelResult
import proofs.«115377_j39565238730835_1_alg».proof.Proof.RefLeastDistance
import Idealize.ShloMosaic.Adequacy
import Idealize.ShloMosaic.Init

noncomputable section

namespace Cert.Proof

open Idealize.ShloMosaic Idealize.ShloMosaic.TcCoe Idealize.SL.Sem
open Cert.MinDistance

/-- The kernel's frame at the word level: generated. -/
theorem frame_k : Cert.frame_Kernel := fun m ρ _ => Cert.Kernel.Gen.frame m ρ

/-- The idealized kernel's frame: generated. -/
theorem frame_ki : Cert.frame_KernelIdeal := fun m ρ _ => Cert.KernelIdeal.Gen.frame m ρ

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the mean squared error of ONE table of least distances of the arguments: the kernel's
    run reaches it because the precondition makes every entry a real number, the reference's run by reading its operations. -/
theorem algebraic : Cert.algebraic_KernelIdeal_ReferenceIdeal := by
  intro m ρ m' ρ' hpre hagree
  have hfin := fun c : Dev Cert.KernelIdeal.nD => Cert.Pre_finite_inputs.Finite.real_of_pre _ _ _ (hpre c)
  refine ⟨_, Cert.KernelIdeal.Result.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.LeastDistance.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
